-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v20)) (v2 : (c : Dev Cert.KernelIdeal.nD) → Buf (Elt Ideal) ((c.tc : Thread Cert.KernelIdeal.nD Cert.KernelIdeal.τ).loc Cert.KernelIdeal.main_arg1)) (v3 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_arg1) = v2 c
          ∧ r.2.mem ((c.tc : Thread Cert.KernelIdeal.nD Cert.KernelIdeal.τ).loc Cert.KernelIdeal.main_arg2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg1) = v2 c
          ∧ r.2.mem ((c.tc : Thread Cert.ReferenceIdeal.nD Cert.ReferenceIdeal.τ).loc Cert.ReferenceIdeal.main_arg2) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x256x256 : Shape := ⟨4, ![8, 64, 256, 256]⟩
abbrev S21x64 : Shape := ⟨2, ![21, 64]⟩
abbrev S_ : Shape := ⟨0, ![]⟩

class Facts : Prop where
  bcast_S_S8x64x256x256 : S_.BroadcastsInDim S8x64x256x256 (![] : Fin 0 → Fin S8x64x256x256.rank)
  reducesTo_S8x64x256x256_S_d0_1_2_3 : S8x64x256x256.ReducesTo [0, 1, 2, 3] S_
  h_S_ : 0 < S_.numel
  bcast_S_S21x64 : S_.BroadcastsInDim S21x64 (![] : Fin 0 → Fin S21x64.rank)
  reducesTo_S21x64_S_d0_1 : S21x64.ReducesTo [0, 1] S_

variable [Facts]

def fn {F : FTy → Type} [FloatOps F] (main_arg0 : FVec F S8x64x256x256 .f32) (main_arg1 : FVec F S21x64 .f32) (main_arg2 : FVec F S21x64 .f32) : IVec S_ 1 :=
  let main_v0 : FVec F S8x64x256x256 .f32 := Host.absf main_arg0
  let main_cst : FVec F S_ .f32 := constant S_ .f32 0x7F800000#32
  let main_v1 : FVec F S8x64x256x256 .f32 := broadcastInDim S8x64x256x256 ![] bcast_S_S8x64x256x256 main_cst
  let main_v2 : IVec S8x64x256x256 1 := cmpf .olt main_v0 main_v1
  let main_c : IVec S_ 1 := constantI S_ 1 1#1
  let main_v3 : IVec S_ 1 := (fun x v => Host.reduce IntOp.andi x v reducesTo_S8x64x256x256_S_d0_1_2_3 h_S_) main_v2 main_c
  let main_v4 : FVec F S21x64 .f32 := Host.absf main_arg1
  let main_cst_0 : FVec F S_ .f32 := constant S_ .f32 0x7F800000#32
  let main_v5 : FVec F S21x64 .f32 := broadcastInDim S21x64 ![] bcast_S_S21x64 main_cst_0
  let main_v6 : IVec S21x64 1 := cmpf .olt main_v4 main_v5
  let main_c_1 : IVec S_ 1 := constantI S_ 1 1#1
  let main_v7 : IVec S_ 1 := (fun x v => Host.reduce IntOp.andi x v reducesTo_S21x64_S_d0_1 h_S_) main_v6 main_c_1
  let main_v8 : IVec S_ 1 := andi main_v3 main_v7
  let main_v9 : FVec F S21x64 .f32 := Host.absf main_arg2
  let main_cst_2 : FVec F S_ .f32 := constant S_ .f32 0x7F800000#32
  let main_v10 : FVec F S21x64 .f32 := broadcastInDim S21x64 ![] bcast_S_S21x64 main_cst_2
  let main_v11 : IVec S21x64 1 := cmpf .olt main_v9 main_v10
  let main_c_3 : IVec S_ 1 := constantI S_ 1 1#1
  let main_v12 : IVec S_ 1 := (fun x v => Host.reduce IntOp.andi x v reducesTo_S21x64_S_d0_1 h_S_) main_v11 main_c_3
  let main_v13 : IVec S_ 1 := andi main_v8 main_v12
  main_v13
-- ==== Kernel.lean ====
abbrev S8x64x256x256 : Shape := ⟨4, ![8, 64, 256, 256]⟩
abbrev S21x64 : Shape := ⟨2, ![21, 64]⟩
abbrev S_ : Shape := ⟨0, ![]⟩
abbrev S21 : Shape := ⟨1, ![21]⟩
abbrev S21x1 : Shape := ⟨2, ![21, 1]⟩
abbrev S8x64x65536 : Shape := ⟨3, ![8, 64, 65536]⟩
abbrev S8x21x65536 : Shape := ⟨3, ![8, 21, 65536]⟩
abbrev S1x64x8192 : Shape := ⟨3, ![1, 64, 8192]⟩
abbrev S1x21x8192 : Shape := ⟨3, ![1, 21, 8192]⟩
abbrev S64x8192 : Shape := ⟨2, ![64, 8192]⟩
abbrev S21x8192 : Shape := ⟨2, ![21, 8192]⟩
abbrev S8x21x256x256 : Shape := ⟨4, ![8, 21, 256, 256]⟩
abbrev S8x256x256x64 : Shape := ⟨4, ![8, 256, 256, 64]⟩
abbrev S524288x64 : Shape := ⟨2, ![524288, 64]⟩

abbrev nBuf : Space → Nat
  | .hbm => 30
  | .vmem => 7
  | .smem => 0
  | _ => 0

abbrev bufTy : (tb : Table) → Fin (tcTables nBuf tb) → BufTy
  | .hbm, ⟨0, _⟩ => ⟨S8x64x256x256, .f32⟩
  | .hbm, ⟨1, _⟩ => ⟨S21x64, .f32⟩
  | .hbm, ⟨2, _⟩ => ⟨S21x64, .f32⟩
  | .hbm, ⟨3, _⟩ => ⟨S_, .f32⟩
  | .hbm, ⟨4, _⟩ => ⟨S21x64, .f32⟩
  | .hbm, ⟨5, _⟩ => ⟨S21x64, .f32⟩
  | .hbm, ⟨6, _⟩ => ⟨S_, .f32⟩
  | .hbm, ⟨7, _⟩ => ⟨S21x64, .f32⟩
  | .hbm, ⟨8, _⟩ => ⟨S21x64, .f32⟩
  | .hbm, ⟨9, _⟩ => ⟨S_, .f32⟩
  | .hbm, ⟨10, _⟩ => ⟨S21x64, .f32⟩
  | .hbm, ⟨11, _⟩ => ⟨S21x64, .f32⟩
  | .hbm, ⟨12, _⟩ => ⟨S21x64, .f32⟩
  | .hbm, ⟨13, _⟩ => ⟨S21x64, .f32⟩
  | .hbm, ⟨14, _⟩ => ⟨S21x64, .f32⟩
  | .hbm, ⟨15, _⟩ => ⟨S_, .f32⟩
  | .hbm, ⟨16, _⟩ => ⟨S21, .f32⟩
  | .hbm, ⟨17, _⟩ => ⟨S21x64, .f32⟩
  | .hbm, ⟨18, _⟩ => ⟨S_, .f32⟩
  | .hbm, ⟨19, _⟩ => ⟨S21, .f32⟩
  | .hbm, ⟨20, _⟩ => ⟨S_, .f32⟩
  | .hbm, ⟨21, _⟩ => ⟨S21, .f32⟩
  | .hbm, ⟨22, _⟩ => ⟨S21, .f32⟩
  | .hbm, ⟨23, _⟩ => ⟨S21, .f32⟩
  | .hbm, ⟨24, _⟩ => ⟨S21x1, .f32⟩
  | .hbm, ⟨25, _⟩ => ⟨S8x64x65536, .f32⟩
  | .hbm, ⟨26, _⟩ => ⟨S8x21x65536, .f32⟩
  | .hbm, ⟨27, _⟩ => ⟨S8x21x256x256, .f32⟩
  | .hbm, ⟨28, _⟩ => ⟨S8x256x256x64, .f32⟩
  | .hbm, ⟨29, _⟩ => ⟨S524288x64, .f32⟩
  | .local _ .vmem, ⟨0, _⟩ => ⟨S1x64x8192, .f32⟩
  | .local _ .vmem, ⟨1, _⟩ => ⟨S1x64x8192, .f32⟩
  | .local _ .vmem, ⟨2, _⟩ => ⟨S21x64, .f32⟩
  | .local _ .vmem, ⟨3, _⟩ => ⟨S21x64, .f32⟩
  | .local _ .vmem, ⟨4, _⟩ => ⟨S21x1, .f32⟩
  | .local _ .vmem, ⟨5, _⟩ => ⟨S1x21x8192, .f32⟩
  | .local _ .vmem, ⟨6, _⟩ => ⟨S1x21x8192, .f32⟩
  | _, _ => ⟨S8x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x64x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S21x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S21x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S21x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x21x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S_S21x64 : S_.BroadcastsInDim S21x64 (![] : Fin 0 → Fin S21x64.rank)
  reducesTo_S21x64_S21_d1 : S21x64.ReducesTo [1] S21
  h_S_ : 0 < S_.numel
  bcast_S_S21 : S_.BroadcastsInDim S21 (![] : Fin 0 → Fin S21.rank)
  shapeCasts_S21_S21x1 : S21.ShapeCasts S21x1
  shapeCasts_S8x64x256x256_S8x64x65536 : S8x64x256x256.ShapeCasts S8x64x65536
  inb_S1x64x8192_S1x64x8192_0_0_0 : ∀ a, (![0, 0, 0] : Fin 3 → Nat) a + S1x64x8192.size a ≤ S1x64x8192.size a
  h_S1x64x8192 : 0 < S1x64x8192.numel
  shapeCasts_S1x64x8192_S64x8192 : S1x64x8192.ShapeCasts S64x8192
  bitsLt_bf16_f32 : FTy.bits .bf16 < FTy.bits .f32
  inb_S21x64_S21x64_0_0 : ∀ a, (![0, 0] : Fin 2 → Nat) a + S21x64.size a ≤ S21x64.size a
  h_S21x64 : 0 < S21x64.numel
  shapeCasts_S21x64_S21x64 : S21x64.ShapeCasts S21x64
  inb_S21x1_S21x1_0_0 : ∀ a, (![0, 0] : Fin 2 → Nat) a + S21x1.size a ≤ S21x1.size a
  h_S21x1 : 0 < S21x1.numel
  shapeCasts_S21x1_S21x1 : S21x1.ShapeCasts S21x1
  broadcasts_S21x1_S21x8192 : S21x1.Broadcasts S21x8192
  inb_S1x21x8192_S1x21x8192_0_0_0 : ∀ a, (![0, 0, 0] : Fin 3 → Nat) a + S1x21x8192.size a ≤ S1x21x8192.size a
  h_S1x21x8192 : 0 < S1x21x8192.numel
  shapeCasts_S1x21x8192_S21x8192 : S1x21x8192.ShapeCasts S21x8192
  shapeCasts_S21x8192_S1x21x8192 : S21x8192.ShapeCasts S1x21x8192
  shapeCasts_S8x21x65536_S8x21x256x256 : S8x21x65536.ShapeCasts S8x21x256x256
  transposes_S8x64x256x256_S8x256x256x64_0_2_3_1 : S8x64x256x256.Transposes [0, 2, 3, 1] S8x256x256x64
  shapeCasts_S8x256x256x64_S524288x64 : S8x256x256x64.ShapeCasts S524288x64
  dot_S21x64_S64x8192_S21x8192_1_0_0_1_n_n_wf : DotDims.WF S21x64 S64x8192 S21x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x8192.size a ≤ S8x64x65536.size a
  hwx0_0 : ∀ i : grid0.Coords, EltTy.bits .f32 = 32 ∨ (Rect.block (s := S8x64x65536) S1x64x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S21x64.size a ≤ S21x64.size a
  hwx0_1 : ∀ i : grid0.Coords, EltTy.bits .f32 = 32 ∨ (Rect.block (s := S21x64) S21x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S21x64.size a ≤ S21x64.size a
  hwx0_2 : ∀ i : grid0.Coords, EltTy.bits .f32 = 32 ∨ (Rect.block (s := S21x64) S21x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S21x1.size a ≤ S21x1.size a
  hwx0_3 : ∀ i : grid0.Coords, EltTy.bits .f32 = 32 ∨ (Rect.block (s := S21x1) S21x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x21x8192.size a ≤ S8x21x65536.size a
  hwx0_4 : ∀ i : grid0.Coords, EltTy.bits .f32 = 32 ∨ (Rect.block (s := S8x21x65536) S1x21x8192.size (cc0_transform_4 i) (hinb0_4 i)).WholeWords (EltTy.packing .f32)

variable [Facts₀]

def dot_S21x64_S64x8192_S21x8192_1_0_0_1_n_n : DotDims S21x64 S64x8192 S21x8192 where
  lhsContracting := [1]
  rhsContracting := [0]
  lhsNonContracting := [0]
  rhsNonContracting := [1]
  lhsBatch := []
  rhsBatch := []
  wf := dot_S21x64_S64x8192_S21x8192_1_0_0_1_n_n_wf

abbrev win0_0 : Pipeline.Window sig grid0 :=
  Pipeline.Window.ofSpec (Memref.whole main_v16) S1x64x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S21x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S21x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S21x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x21x8192.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x64x256x256 : Shape := ⟨4, ![8, 64, 256, 256]⟩
abbrev S21x64 : Shape := ⟨2, ![21, 64]⟩
abbrev S8x256x256x64 : Shape := ⟨4, ![8, 256, 256, 64]⟩
abbrev S524288x64 : Shape := ⟨2, ![524288, 64]⟩
abbrev S_ : Shape := ⟨0, ![]⟩
abbrev S524288x21 : Shape := ⟨2, ![524288, 21]⟩
abbrev S21 : Shape := ⟨1, ![21]⟩
abbrev S1x21 : Shape := ⟨2, ![1, 21]⟩
abbrev S8x256x256x21 : Shape := ⟨4, ![8, 256, 256, 21]⟩
abbrev S8x21x256x256 : Shape := ⟨4, ![8, 21, 256, 256]⟩

abbrev nBuf : Space → Nat
  | .hbm => 36
  | .vmem => 0
  | .smem => 0
  | _ => 0

abbrev bufTy : (tb : Table) → Fin (tcTables nBuf tb) → BufTy
  | .hbm, ⟨0, _⟩ => ⟨S8x64x256x256, .f32⟩
  | .hbm, ⟨1, _⟩ => ⟨S21x64, .f32⟩
  | .hbm, ⟨2, _⟩ => ⟨S21x64, .f32⟩
  | .hbm, ⟨3, _⟩ => ⟨S8x256x256x64, .f32⟩
  | .hbm, ⟨4, _⟩ => ⟨S524288x64, .f32⟩
  | .hbm, ⟨5, _⟩ => ⟨S_, .f32⟩
  | .hbm, ⟨6, _⟩ => ⟨S21x64, .f32⟩
  | .hbm, ⟨7, _⟩ => ⟨S21x64, .f32⟩
  | .hbm, ⟨8, _⟩ => ⟨S_, .f32⟩
  | .hbm, ⟨9, _⟩ => ⟨S21x64, .f32⟩
  | .hbm, ⟨10, _⟩ => ⟨S21x64, .f32⟩
  | .hbm, ⟨11, _⟩ => ⟨S_, .f32⟩
  | .hbm, ⟨12, _⟩ => ⟨S21x64, .f32⟩
  | .hbm, ⟨13, _⟩ => ⟨S21x64, .f32⟩
  | .hbm, ⟨14, _⟩ => ⟨S524288x64, .f32⟩
  | .hbm, ⟨15, _⟩ => ⟨S524288x21, .f32⟩
  | .hbm, ⟨16, _⟩ => ⟨S21x64, .f32⟩
  | .hbm, ⟨17, _⟩ => ⟨S524288x21, .f32⟩
  | .hbm, ⟨18, _⟩ => ⟨S21x64, .f32⟩
  | .hbm, ⟨19, _⟩ => ⟨S21x64, .f32⟩
  | .hbm, ⟨20, _⟩ => ⟨S_, .f32⟩
  | .hbm, ⟨21, _⟩ => ⟨S21, .f32⟩
  | .hbm, ⟨22, _⟩ => ⟨S21x64, .f32⟩
  | .hbm, ⟨23, _⟩ => ⟨S_, .f32⟩
  | .hbm, ⟨24, _⟩ => ⟨S21, .f32⟩
  | .hbm, ⟨25, _⟩ => ⟨S_, .f32⟩
  | .hbm, ⟨26, _⟩ => ⟨S21, .f32⟩
  | .hbm, ⟨27, _⟩ => ⟨S21, .f32⟩
  | .hbm, ⟨28, _⟩ => ⟨S21, .f32⟩
  | .hbm, ⟨29, _⟩ => ⟨S524288x21, .f32⟩
  | .hbm, ⟨30, _⟩ => ⟨S1x21, .f32⟩
  | .hbm, ⟨31, _⟩ => ⟨S524288x21, .f32⟩
  | .hbm, ⟨32, _⟩ => ⟨S524288x21, .f32⟩
  | .hbm, ⟨33, _⟩ => ⟨S8x256x256x21, .f32⟩
  | .hbm, ⟨34, _⟩ => ⟨S8x21x256x256, .f32⟩
  | .hbm, ⟨35, _⟩ => ⟨S8x21x256x256, .f32⟩
  | _, _ => ⟨S8x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]

class Facts₀ : Prop where
  transposes_S8x64x256x256_S8x256x256x64_0_2_3_1 : S8x64x256x256.Transposes [0, 2, 3, 1] S8x256x256x64
  shapeCasts_S8x256x256x64_S524288x64 : S8x256x256x64.ShapeCasts S524288x64
  bcast_S_S21x64 : S_.BroadcastsInDim S21x64 (![] : Fin 0 → Fin S21x64.rank)
  reducesTo_S21x64_S21_d1 : S21x64.ReducesTo [1] S21
  h_S_ : 0 < S_.numel
  bcast_S_S21 : S_.BroadcastsInDim S21 (![] : Fin 0 → Fin S21.rank)
  bcast_S21_S1x21_1 : S21.BroadcastsInDim S1x21 (![1] : Fin 1 → Fin S1x21.rank)
  bcast_S1x21_S524288x21_0_1 : S1x21.BroadcastsInDim S524288x21 (![0, 1] : Fin 2 → Fin S524288x21.rank)
  shapeCasts_S524288x21_S8x256x256x21 : S524288x21.ShapeCasts S8x256x256x21
  transposes_S8x256x256x21_S8x21x256x256_0_3_1_2 : S8x256x256x21.Transposes [0, 3, 1, 2] S8x21x256x256
  dot_S524288x64_S21x64_S524288x21_1_1_0_0_n_n_wf : DotDims.WF S524288x64 S21x64 S524288x21 [1] [1] [0] [0] [] []

variable [Facts₀]

def dot_S524288x64_S21x64_S524288x21_1_1_0_0_n_n : DotDims S524288x64 S21x64 S524288x21 where
  lhsContracting := [1]
  rhsContracting := [1]
  lhsNonContracting := [0]
  rhsNonContracting := [0]
  lhsBatch := []
  rhsBatch := []
  wf := dot_S524288x64_S21x64_S524288x21_1_1_0_0_n_n_wf

class Facts : Prop extends Facts₀ where

variable [Facts]
-- ==== Proof.Score.lean ====
/-
  The class score of a diagonal Gaussian, as one function of the feature map and of three coefficient tables.

  For a feature map `ft` of shape [8, 64, 256, 256] (image, channel, row, column), two tables `A`, `B` of shape
  [21, 64] (class, channel) and a table `C` of shape [21] (class), the score of class `c` at pixel `(n, h, w)` is

      -( (Σ_d A(c, d) · ft(n, d, h, w)²  -  Σ_d B(c, d) · ft(n, d, h, w))  +  C(c) ),

  the sums over the 64 channels, everything read on the extended reals. With `A = 1 / (2 v)`, `B = mean / v` and
  `C = Σ_d mean² / (2 v) + ½ Σ_d log v` this is the log-density of the pixel's feature vector under class `c`, up to
  a constant. Both programs of this certificate compute it: one pixel block at a time with the tables on the left of
  the products, and for all pixels at once with the tables on the right; the two products differ by the order of their
  factors only, so no finiteness is needed.
-/
import Idealize.ShloMosaic.PureOps.Ideal
import Idealize.ShloMosaic.Lib.ValueIdx

noncomputable section

namespace Cert.Score

open Idealize.ShloMosaic Idealize.ShloMosaic.ValueIdx

/-- The feature map's, the tables' and the result's index shapes. -/
abbrev SFt : Shape := ⟨4, ![8, 64, 256, 256]⟩
abbrev STab : Shape := ⟨2, ![21, 64]⟩
abbrev SCls : Shape := ⟨1, ![21]⟩
abbrev SOut : Shape := ⟨4, ![8, 21, 256, 256]⟩

/-- The score of class `c` at pixel `(n, h, w)`. -/
def scoreAt (ft : SFt.Idx → EReal) (A B : STab.Idx → EReal) (C : SCls.Idx → EReal)
    (n : Fin 8) (c : Fin 21) (h w : Fin 256) : EReal :=
  -(((∑ d : Fin 64, A (ix2 c d) * (ft (ix4 n d h w) * ft (ix4 n d h w)))
      - ∑ d : Fin 64, B (ix2 c d) * ft (ix4 n d h w)) + C (ix1 c))

/-- The whole score array, [8, 21, 256, 256]. -/
def score (ft : SFt.Idx → EReal) (A B : STab.Idx → EReal) (C : SCls.Idx → EReal) : SOut.Idx → EReal :=
  fun i => scoreAt ft A B C (i 0) (i 1) (i 2) (i 3)

theorem score_apply (ft : SFt.Idx → EReal) (A B : STab.Idx → EReal) (C : SCls.Idx → EReal)
    (n : Fin 8) (c : Fin 21) (h w : Fin 256) : score ft A B C (ix4 n c h w) = scoreAt ft A B C n c h w := rfl

end Cert.Score

end
-- ==== Proof.RefScore.lean ====
/-
  The reference computes the class score.

  The reference flattens the feature map to one row per pixel — pixel `(n, h, w)` is row `(n·256 + h)·256 + w`,
  channel `d` its column —, takes two products of that matrix (squared entrywise, and plain) with the coefficient tables
  contracted over the channels, subtracts, adds the per-class constant, and lays the [524288, 21] result out as
  [8, 21, 256, 256] before negating. Read at `(n, c, h, w)`, the row is the pixel's and the column the class, so the two
  products are `Σ_d ft(n, d, h, w)² · A(c, d)` and `Σ_d ft(n, d, h, w) · B(c, d)`: the score, with the factors of each
  product in the other order.
-/
import proofs.«165285_j30726196036197_1_alg».proof.Proof.Gen.ReferenceIdeal.Read
import proofs.«165285_j30726196036197_1_alg».proof.Proof.Score

noncomputable section

namespace Cert.ReferenceIdeal.RefScore

open Cert.ReferenceIdeal Cert.ReferenceIdeal.Gen Cert.ReferenceIdeal.Read
open Idealize.ShloMosaic Idealize.ShloMosaic.ValueIdx

/-- Row `(n·256 + h)·256 + w` of the flattened result, column `c`: where the laid-out result reads entry `(n, c, h, w)`. -/
abbrev flat (n : Fin 8) (c : Fin 21) (h w : Fin 256) : S524288x21.Idx :=
  idx_main_v24 (idx_main_v25 (ix4 n c h w))

/-- Its row is the pixel's row number. -/
theorem flat_row (n : Fin 8) (c : Fin 21) (h w : Fin 256) : (flat n c h w 0).val = (n.val * 256 + h.val) * 256 + w.val := by
  have := c.isLt
  show (((n.val * 256 + h.val) * 256 + w.val) * 21 + c.val) / 21 = (n.val * 256 + h.val) * 256 + w.val
  omega

/-- Its column is the class. -/
theorem flat_col (n : Fin 8) (c : Fin 21) (h w : Fin 256) : (flat n c h w 1).val = c.val := by
  have := c.isLt
  show (((n.val * 256 + h.val) * 256 + w.val) * 21 + c.val) % 21 = c.val
  omega

/-- Entry `(row, d)` of the flattened feature map is `ft(n, d, h, w)`. -/
theorem pixel_apply (x0 : (⟨S8x64x256x256, .f32⟩ : BufTy).Contents (Elt Ideal)) (n : Fin 8) (h w : Fin 256) (d : Fin 64)
    (r : S524288x64.Idx) (hr0 : (r 0).val = (n.val * 256 + h.val) * 256 + w.val) (hr1 : (r 1).val = d.val) :
    val_main_v1 (F := Ideal) x0 r = x0 (ix4 n d h w) := by
  rw [val_main_v1_apply, val_main_v0_apply]
  refine congrArg x0 (funext fun a => Fin.ext ?_)
  have hn := n.isLt; have hh := h.isLt; have hw := w.isLt; have hd := d.isLt
  match a with
  | ⟨0, _⟩ => show ((r 0).val * 64 + (r 1).val) / 4194304 = n.val; rw [hr0, hr1]; omega
  | ⟨1, _⟩ => show ((r 0).val * 64 + (r 1).val) % 64 = d.val; rw [hr0, hr1]; omega
  | ⟨2, _⟩ => show ((r 0).val * 64 + (r 1).val) / 16384 % 256 = h.val; rw [hr0, hr1]; omega
  | ⟨3, _⟩ => show ((r 0).val * 64 + (r 1).val) / 64 % 256 = w.val; rw [hr0, hr1]; omega

/-- THE REFERENCE'S RESULT IS THE SCORE of the feature map under the tables the reference computes. -/
theorem result_eq_score (x0 : (⟨S8x64x256x256, .f32⟩ : BufTy).Contents (Elt Ideal)) (x1 x2 : (⟨S21x64, .f32⟩ : BufTy).Contents (Elt Ideal)) :
    val_main_v26 (F := Ideal) x0 x1 x2
      = Cert.Score.score x0 (val_main_v7 (F := Ideal) x2) (val_main_v10 (F := Ideal) x1 x2) (val_main_v19 (F := Ideal) x1 x2) := by
  funext i
  obtain ⟨n, c, h, w, rfl⟩ : ∃ (n : Fin 8) (c : Fin 21) (h w : Fin 256), i = ix4 n c h w := ⟨i 0, i 1, i 2, i 3, eq_ix4 i⟩
  rw [Cert.Score.score_apply, val_main_v26_apply, val_main_v25_apply, val_main_v24_apply, val_main_v23_apply, val_main_v20_apply,
    val_main_v9_apply, val_main_v11_apply, val_main_v22_apply, val_main_v21_apply]
  unfold Cert.Score.scoreAt
  have hcol : ∀ k : Fin 64, ridx_main_v9 (flat n c h w) k = ix2 c k := fun k => funext fun a => Fin.ext (by
    match a with
    | ⟨0, _⟩ => exact flat_col n c h w
    | ⟨1, _⟩ => rfl)
  have hcls : idx_main_v21 (idx_main_v22 (flat n c h w)) = ix1 c := funext fun a => Fin.ext (by
    match a with
    | ⟨0, _⟩ => exact flat_col n c h w)
  have hsq : ∀ k : Fin 64, val_main_v8 (F := Ideal) x0 (lidx_main_v9 (flat n c h w) k) = x0 (ix4 n k h w) * x0 (ix4 n k h w) := fun k => by
    rw [val_main_v8_apply, pixel_apply x0 n h w k _ (flat_row n c h w) rfl]
    rfl
  have hpl : ∀ k : Fin 64, val_main_v1 (F := Ideal) x0 (lidx_main_v11 (flat n c h w) k) = x0 (ix4 n k h w) := fun k =>
    pixel_apply x0 n h w k _ (flat_row n c h w) rfl
  show -((∑ k : Fin 64, val_main_v8 (F := Ideal) x0 (lidx_main_v9 (flat n c h w) k) * val_main_v7 (F := Ideal) x2 (ridx_main_v9 (flat n c h w) k))
        - (∑ k : Fin 64, val_main_v1 (F := Ideal) x0 (lidx_main_v11 (flat n c h w) k) * val_main_v10 (F := Ideal) x1 x2 (ridx_main_v9 (flat n c h w) k))
        + val_main_v19 (F := Ideal) x1 x2 (idx_main_v21 (idx_main_v22 (flat n c h w)))) = _
  rw [hcls]
  refine congrArg (fun s => -(s + _)) ?_
  refine congrArg₂ (· - ·) (Finset.sum_congr rfl fun k _ => ?_) (Finset.sum_congr rfl fun k _ => ?_)
  · rw [hsq k, hcol k, mul_comm]
  · rw [hpl k, hcol k, mul_comm]

end Cert.ReferenceIdeal.RefScore

end
-- ==== Proof.LibMatmul.lean ====
/-
  A plain matrix product read at an index, over the extended reals.

  The dimension numbers "contract the left operand's second axis with the right operand's first, no batch axes"
  (`DotDims.plain M K N`) make entry `(p, q)` of the product the sum over `k` of `l (p, k) * r (k, q)`: the
  contraction index has one coordinate, which is `k`; the left operand is read at row `p` of the result's index
  and column `k`, the right operand at row `k` and the result's column `q`. Stated once for every size, for the
  kernel's product into a zero accumulator and for the host's product alike, so that a block of rows of a product
  and the whole product are compared as sums over the same `Fin K`.
-/
import Idealize.ShloMosaic.PureOps.Ideal
import Idealize.ShloMosaic.PureOps.Ideal.Laws
import Idealize.ShloMosaic.Lib.ValueIdx

noncomputable section

namespace LibMatmul

open Idealize.ShloMosaic Idealize.ShloMosaic.ValueIdx

variable {M K N : Nat}

/-- The left operand's row is the result's row. -/
theorem plain_lhs_0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs_1 (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- The right operand's row is the contraction position. -/
theorem plain_rhs_0 (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- The right operand's column is the result's column. -/
theorem plain_rhs_1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction shape is the sum over `k : Fin K` of the two operands at `(p, k)` and `(k, q)`. -/
theorem plain_sum (l : (⟨2, ![M, K]⟩ : Shape).Idx → EReal) (r : (⟨2, ![K, N]⟩ : Shape).Idx → EReal) (p : Fin M) (q : Fin N) :
    ∑ c : (DotDims.plain M K N).contr.Idx, l ((DotDims.plain M K N).lhsIdx (ix2 p q) c) * r ((DotDims.plain M K N).rhsIdx (ix2 p q) c)
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_0 _ _
      | ⟨1, _⟩ => exact (plain_lhs_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_0 _ _).trans hk
      | ⟨1, _⟩ => exact plain_rhs_1 _ _)
  rw [el, er]

/-- The kernel's product into the zero accumulator, at entry `(p, q)`. -/
theorem matmul_zero_plain_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply]
  exact plain_sum l r p q

/-- The host's product, at entry `(p, q)`. -/
theorem dotGeneral_plain_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply]
  exact plain_sum l r p q

end LibMatmul

end
-- ==== Proof.BlockScore.lean ====
/-
  What the kernel body computes on one block, read at one entry.

  The body loads a [1, 64, 8192] block `x` of the feature map (64 channels, 8192 pixels), the two [21, 64] tables
  `a`, `b` and the [21, 1] column `k`, forms the two products `a · x²` and `b · x` (tables on the left, the channel axis
  contracted, each into a zero accumulator), and stores `0 - ((a·x² - b·x) + k)` with the column broadcast along the
  pixels. The changes of float format on the way are the identity on the extended reals, so entry `(c, p)` of the stored
  block is `-((Σ_d a(c, d) · x(d, p)² - Σ_d b(c, d) · x(d, p)) + k(c))`.
-/
import proofs.«165285_j30726196036197_1_alg».proof.Proof.Gen.KernelIdeal.Skeleton
import proofs.«165285_j30726196036197_1_alg».proof.Proof.LibMatmul
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen
open Idealize.ShloMosaic Idealize.ShloMosaic.ValueIdx

/-- Entry `(c, p)` of the block the body stores, as a function of the four blocks it loads. -/
def blockScore (x : S1x64x8192.Idx → EReal) (a b : S21x64.Idx → EReal) (k : S21x1.Idx → EReal) (c : Fin 21) (p : Fin 8192) : EReal :=
  -(((∑ d : Fin 64, a (ix2 c d) * (x (ix3 (0 : Fin 1) d p) * x (ix3 (0 : Fin 1) d p)))
      - ∑ d : Fin 64, b (ix2 c d) * x (ix3 (0 : Fin 1) d p)) + k (ix2 c (0 : Fin 1)))

/-- A [21, 8192] value viewed as a [1, 21, 8192] block: entry `(0, c, p)` is entry `(c, p)`. -/
theorem addUnit_apply (v : FVec Ideal S21x8192 .f32) (h : S21x8192.ShapeCasts S1x21x8192) (c : Fin 21) (p : Fin 8192) :
    shapeCast S1x21x8192 v h (ix3 (0 : Fin 1) c p) = v (ix2 c p) :=
  (shapeCast_addUnit_apply ![21, 8192] v h (ix3 (0 : Fin 1) c p)).trans
    (congrArg v (funext fun a => by match a with | ⟨0, _⟩ => rfl | ⟨1, _⟩ => rfl))

/-- A [1, 64, 8192] block viewed as [64, 8192]: entry `(d, p)` is entry `(0, d, p)`. -/
theorem dropUnit_apply (v : Vec Ideal S1x64x8192 .f32) (h : S1x64x8192.ShapeCasts S64x8192) (d : Fin 64) (p : Fin 8192) :
    shapeCast S64x8192 v h (ix2 d p) = v (ix3 (0 : Fin 1) d p) :=
  (shapeCast_dropUnit_apply ![64, 8192] v h (ix2 d p)).trans
    (congrArg v (funext fun a => by match a with | ⟨0, _⟩ => rfl | ⟨1, _⟩ => rfl | ⟨2, _⟩ => rfl))

/-- The [21, 1] column broadcast along the pixels: entry `(c, p)` is the column's entry `c`. -/
theorem column_apply (k : FVec Ideal S21x1 .f32) (h : S21x1.Broadcasts S21x8192) (c : Fin 21) (p : Fin 8192) :
    broadcastTo S21x8192 k h (ix2 c p) = k (ix2 c (0 : Fin 1)) :=
  broadcastTo_apply k h (ix2 c p) (ix2 c (0 : Fin 1)) (fun a => match a with
    | ⟨0, _⟩ => by show c.val = if (21 : Nat) = 1 then 0 else c.val; rw [if_neg (by decide)]
    | ⟨1, _⟩ => by show (0 : Nat) = if (1 : Nat) = 1 then 0 else p.val; rw [if_pos rfl])

/-- The body's product of a [21, 64] table by a [64, 8192] block into a zero accumulator, at entry `(c, p)`: the sum
    over the channels. (Its dimension numbers are those of the plain matrix product.) -/
theorem product_apply {φ₁ φ₂ : FTy} (l : FVec Ideal S21x64 φ₁) (r : FVec Ideal S64x8192 φ₂) (c : Fin 21) (p : Fin 8192) :
    matmul dot_S21x64_S64x8192_S21x8192_1_0_0_1_n_n none l r (constant S21x8192 .f32 0x00000000#32) (ix2 c p)
      = ∑ d : Fin 64, l (ix2 c d) * r (ix2 d p) :=
  LibMatmul.matmul_zero_plain_apply (M := 21) (K := 64) (N := 8192) none l r c p

/-- THE STORED BLOCK at entry `(0, c, p)`. -/
theorem pay_apply (x : Vec Ideal S1x64x8192 .f32) (a b : Vec Ideal S21x64 .f32) (k : Vec Ideal S21x1 .f32) (c : Fin 21) (p : Fin 8192) :
    k0_pay1 x a b k (ix3 (0 : Fin 1) c p) = blockScore x a b k c p := by
  unfold k0_pay1
  rw [addUnit_apply]
  simp only [subf_apply, addf_apply, broadcast_apply]
  rw [product_apply, product_apply, column_apply]
  simp only [truncf_apply, mulf_apply, shapeCast_self, Ideal.ofBits_def, Ideal.ofBits_zero_f32, zero_sub]
  unfold blockScore
  refine congrArg (fun s => -(s + _)) (congrArg₂ (· - ·) (Finset.sum_congr rfl fun d _ => ?_) (Finset.sum_congr rfl fun d _ => ?_))
  · rw [dropUnit_apply]
  · rw [dropUnit_apply]

/-- The same at any entry of the stored block: its leading coordinate is `0`. -/
theorem pay_at (x : Vec Ideal S1x64x8192 .f32) (a b : Vec Ideal S21x64 .f32) (k : Vec Ideal S21x1 .f32) (y : S1x21x8192.Idx) :
    k0_pay1 x a b k y = blockScore x a b k (y 1) (y 2) := by
  obtain ⟨z, c, p, rfl⟩ : ∃ (z : Fin 1) (c : Fin 21) (p : Fin 8192), y = ix3 z c p := ⟨y 0, y 1, y 2, eq_ix3 y⟩
  obtain rfl : z = 0 := Subsingleton.elim _ _
  exact pay_apply x a b k c p

end Cert.KernelIdeal.Block

end
-- ==== Proof.ArrayScore.lean ====
/-
  From blocks to the array: what the region leaves in its [8, 21, 65536] result.

  The grid has 8 × 8 points; point `(i, j)` reads block `(i, 0, j)` of the [8, 64, 65536] feature array (image `i`, all 64
  channels, pixels `8192·j … 8192·j + 8191`), reads the three coefficient arrays whole, and writes block `(i, 0, j)` of the
  result (image `i`, all 21 classes, the same pixels). What it writes is the block score of what it read, so entry
  `(n, c, q)` of the result depends on the feature array at `(n, ·, q)` only — the block of the one whole-array function
  `arrayScore` below — and the 64 blocks tile the result: image `n`, pixel `q` lies in the block of point `(n, q / 8192)`.
-/
import proofs.«165285_j30726196036197_1_alg».proof.Proof.Gen.KernelIdeal.Frame
import proofs.«165285_j30726196036197_1_alg».proof.Proof.BlockScore
import Idealize.ShloMosaic.Lib.Pipeline.Value

set_option maxRecDepth 16384

noncomputable section

namespace Cert.KernelIdeal.Array

open Cert.KernelIdeal Cert.KernelIdeal.Gen Cert.KernelIdeal.Block
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The region's result as one function of the four arrays it reads: entry `(n, c, q)` is
    `-((Σ_d a(c, d) · X(n, d, q)² - Σ_d b(c, d) · X(n, d, q)) + k(c))`. -/
def arrayScore (X : S8x64x65536.Idx → EReal) (a b : S21x64.Idx → EReal) (k : S21x1.Idx → EReal) : S8x21x65536.Idx → EReal :=
  fun i => -(((∑ d : Fin 64, a (ix2 (i 1) d) * (X (ix3 (i 0) d (i 2)) * X (ix3 (i 0) d (i 2))))
      - ∑ d : Fin 64, b (ix2 (i 1) d) * X (ix3 (i 0) d (i 2))) + k (ix2 (i 1) (0 : Fin 1)))

/-- The arrays the region reads, as it finds them, and its input blocks at a point, at their literal types. -/
abbrev Xarr (c : Dev nD) : S8x64x65536.Idx → EReal := V m c main_v16
abbrev aarr (c : Dev nD) : S21x64.Idx → EReal := V m c main_v5
abbrev barr (c : Dev nD) : S21x64.Idx → EReal := V m c main_v6
abbrev karr (c : Dev nD) : S21x1.Idx → EReal := V m c main_v15
abbrev xblk (c : Dev nD) (t : Fin cfg0.N) : Vec Ideal S1x64x8192 .f32 := iblk m c 0 t
abbrev ablk (c : Dev nD) (t : Fin cfg0.N) : Vec Ideal S21x64 .f32 := iblk m c 1 t
abbrev bblk (c : Dev nD) (t : Fin cfg0.N) : Vec Ideal S21x64 .f32 := iblk m c 2 t
abbrev kblk (c : Dev nD) (t : Fin cfg0.N) : Vec Ideal S21x1 .f32 := iblk m c 3 t

/-- The printed index maps, decided over the 64 points: the feature window moves with the result window on the image
    and pixel-block axes and sits at channel block 0; the three coefficient windows sit at block (0, 0); the result
    window's image and pixel-block indices are below 8. -/
theorem idx_facts : ∀ t : Fin cfg0.N,
    win0_0.index t (0 : Fin 3) = win0_4.index t (0 : Fin 3) ∧ win0_0.index t (1 : Fin 3) = 0
    ∧ win0_0.index t (2 : Fin 3) = win0_4.index t (2 : Fin 3) ∧ win0_4.index t (1 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) ≤ 7 ∧ win0_4.index t (2 : Fin 3) ≤ 7 :=
  (by decide +kernel : ∀ t : Fin grid0.N, _)

/-- Every (image, pixel block) pair is some point's. -/
theorem idx_onto : ∀ (q0 q2 : Fin 8), ∃ t : Fin cfg0.N, win0_4.index t = ![q0.val, 0, q2.val] :=
  (by decide +kernel : ∀ (q0 q2 : Fin 8), ∃ t : Fin grid0.N, win0_4.index t = ![q0.val, 0, q2.val])

/-- The feature window's block at point `t`, entry `y`, is the feature array at the block's offset plus `y`. -/
theorem xblk_apply (c : Dev nD) (t : Fin cfg0.N) (y : S1x64x8192.Idx) (i : S8x64x65536.Idx)
    (h0 : win0_0.index t (0 : Fin 3) * 1 + 1 * (y 0).val = (i 0).val)
    (h1 : win0_0.index t (1 : Fin 3) * 64 + 1 * (y 1).val = (i 1).val)
    (h2 : win0_0.index t (2 : Fin 3) * 8192 + 1 * (y 2).val = (i 2).val) :
    xblk m c t y = Xarr m c i := by
  unfold xblk iblk
  rw [View.read_apply]
  show V m c main_v16 _ = V m c main_v16 _
  refine congrArg (V m c main_v16) (funext fun a => Fin.ext ?_)
  match a with
  | ⟨0, _⟩ => exact h0
  | ⟨1, _⟩ => exact h1
  | ⟨2, _⟩ => exact h2

/-- The first coefficient window's one block is its array. -/
theorem ablk_eq (c : Dev nD) (t : Fin cfg0.N) : ablk m c t = aarr m c := by
  obtain ⟨-, -, -, -, e0, e1, -⟩ := idx_facts t
  funext y
  unfold ablk iblk
  rw [View.read_apply]
  show V m c main_v5 _ = V m c main_v5 _
  refine congrArg (V m c main_v5) (funext fun a => Fin.ext ?_)
  match a with
  | ⟨0, _⟩ => show win0_1.index t (0 : Fin 2) * 21 + 1 * (y 0).val = (y 0).val; omega
  | ⟨1, _⟩ => show win0_1.index t (1 : Fin 2) * 64 + 1 * (y 1).val = (y 1).val; omega

/-- The second coefficient window's one block is its array. -/
theorem bblk_eq (c : Dev nD) (t : Fin cfg0.N) : bblk m c t = barr m c := by
  obtain ⟨-, -, -, -, -, -, e0, e1, -⟩ := idx_facts t
  funext y
  unfold bblk iblk
  rw [View.read_apply]
  show V m c main_v6 _ = V m c main_v6 _
  refine congrArg (V m c main_v6) (funext fun a => Fin.ext ?_)
  match a with
  | ⟨0, _⟩ => show win0_2.index t (0 : Fin 2) * 21 + 1 * (y 0).val = (y 0).val; omega
  | ⟨1, _⟩ => show win0_2.index t (1 : Fin 2) * 64 + 1 * (y 1).val = (y 1).val; omega

/-- The constant column's one block is its array. -/
theorem kblk_eq (c : Dev nD) (t : Fin cfg0.N) : kblk m c t = karr m c := by
  obtain ⟨-, -, -, -, -, -, -, -, e0, e1, -⟩ := idx_facts t
  funext y
  unfold kblk iblk
  rw [View.read_apply]
  show V m c main_v15 _ = V m c main_v15 _
  refine congrArg (V m c main_v15) (funext fun a => Fin.ext ?_)
  match a with
  | ⟨0, _⟩ => show win0_3.index t (0 : Fin 2) * 21 + 1 * (y 0).val = (y 0).val; omega
  | ⟨1, _⟩ => show win0_3.index t (1 : Fin 2) * 1 + 1 * (y 1).val = (y 1).val; omega

/-- The block score of what point `t` reads, at entry `y` of its block, is the array score at the entry's place in the
    result: the feature block's pixel `(0, d, y 2)` is the feature array's `(i 0, d, i 2)` for the result index `i` whose
    image and pixel are the block's offsets plus `y`'s. -/
theorem blockScore_eq (c : Dev nD) (t : Fin cfg0.N) (y : S1x21x8192.Idx) (i : S8x21x65536.Idx)
    (h0 : win0_4.index t (0 : Fin 3) * 1 + 1 * (y 0).val = (i 0).val)
    (h1 : win0_4.index t (1 : Fin 3) * 21 + 1 * (y 1).val = (i 1).val)
    (h2 : win0_4.index t (2 : Fin 3) * 8192 + 1 * (y 2).val = (i 2).val) :
    blockScore (xblk m c t) (ablk m c t) (bblk m c t) (kblk m c t) (y 1) (y 2)
      = arrayScore (Xarr m c) (aarr m c) (barr m c) (karr m c) i := by
  obtain ⟨e0, e1, e2, e3, -⟩ := idx_facts t
  have hy0 : (y 0).val = 0 := by have h : (y 0).val < 1 := (y 0).isLt; omega
  have hc : y 1 = i 1 := Fin.ext (by omega)
  have hx : ∀ d : Fin 64, xblk m c t (ix3 (0 : Fin 1) d (y 2)) = Xarr m c (ix3 (i 0) d (i 2)) := fun d =>
    xblk_apply m c t _ _ (by show win0_0.index t (0 : Fin 3) * 1 + 1 * 0 = (i 0).val; rw [e0, ← h0, hy0])
      (by show win0_0.index t (1 : Fin 3) * 64 + 1 * d.val = d.val; omega)
      (by show win0_0.index t (2 : Fin 3) * 8192 + 1 * (y 2).val = (i 2).val; rw [e2]; exact h2)
  unfold blockScore arrayScore
  rw [ablk_eq, bblk_eq, kblk_eq, hc]
  refine congrArg (fun s => -(s + _)) (congrArg₂ (· - ·) (Finset.sum_congr rfl fun d _ => ?_) (Finset.sum_congr rfl fun d _ => ?_))
  · rw [hx d]
  · rw [hx d]

/-- WHAT POINT `t` WRITES BACK is block `t` of the array score of the arrays as the region finds them. -/
theorem flushed_eq (c : Dev nD) (t : Fin cfg0.N) :
    (dats m 0 c).flushed 4 t
      = ((cfg0.win 4).blk t).view.read (Elt Ideal) (arrayScore (Xarr m c) (aarr m c) (barr m c) (karr m c)) := by
  show (cfg0.win 4).cut (grid0.coords t) ((dats m 0 c).after 4 t) = _
  rw [after0_4]
  unfold out0_4
  rw [View.canon_unit_zero hz3]
  simp only [View.ld_unit_zero (S := S1x64x8192) hz3, View.ld_unit_zero (S := S21x64) hz2, View.ld_unit_zero (S := S21x1) hz2]
  funext j
  show k0_pay1 (xblk m c t) (ablk m c t) (bblk m c t) (kblk m c t) j
    = arrayScore (Xarr m c) (aarr m c) (barr m c) (karr m c) (((cfg0.win 4).blk t).view.emb j)
  rw [pay_at]
  exact blockScore_eq m c t j _ rfl rfl rfl

/-- An index of the result is in point `t`'s block iff each coordinate is in the block's range on its axis. -/
theorem mem_blk (t : Fin cfg0.N) (i : S8x21x65536.Idx) :
    i ∈ ((cfg0.win 4).blk t).view.set ↔ ∀ a : Fin 3, win0_4.index t a * S1x21x8192.size a ≤ (i a).val ∧ (i a).val < win0_4.index t a * S1x21x8192.size a + S1x21x8192.size a := by
  show i ∈ ((View.whole main_v17).slice (win0_4.rect t)).set ↔ _
  rw [View.set_slice_whole, Rect.mem_set_unit]
  exact Iff.rfl

/-- The 64 blocks tile the result: image `n`, pixel `q` is in the block of the point at (`n`, `q / 8192`). -/
theorem covered (i : S8x21x65536.Idx) : ∃ t : Fin cfg0.N, (cfg0.win 4).flush t = true ∧ i ∈ ((cfg0.win 4).blk t).view.set := by
  have hi0 : (i 0).val < 8 := (i 0).isLt
  have hi1 : (i 1).val < 21 := (i 1).isLt
  have hi2 : (i 2).val < 65536 := (i 2).isLt
  obtain ⟨t, ht⟩ := idx_onto ⟨(i 0).val, hi0⟩ ⟨(i 2).val / 8192, by omega⟩
  have q0 : win0_4.index t (0 : Fin 3) = (i 0).val := congrFun ht 0
  have q1 : win0_4.index t (1 : Fin 3) = 0 := congrFun ht 1
  have q2 : win0_4.index t (2 : Fin 3) = (i 2).val / 8192 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 21 ≤ (i 1).val ∧ (i 1).val < win0_4.index t (1 : Fin 3) * 21 + 21; omega
  | ⟨2, _⟩ => show win0_4.index t (2 : Fin 3) * 8192 ≤ (i 2).val ∧ (i 2).val < win0_4.index t (2 : Fin 3) * 8192 + 8192; omega

/-- THE RESULT ARRAY after the region: the array score of the arrays the region reads. -/
theorem final (c : Dev nD) :
    (dats m 0 c).arrAt 4 cfg0.N = arrayScore (Xarr m c) (aarr m c) (barr m c) (karr m c) :=
  (dats m 0 c).arrAt_eq_of_cover 4 _ (fun t _ => flushed_eq m c t) covered

end Cert.KernelIdeal.Array

end
-- ==== Proof.KernelRun.lean ====
/-
  The kernel program's run, read: its first result is the class score of the argument arrays.

  Before the region the host computes the three coefficient arrays from `mean` and `var` (the same operations, on the
  same literals, as the reference's) and views the feature map [8, 64, 256, 256] as [8, 64, 65536], pixel `(h, w)` at
  position `256·h + w`. The region leaves the array score of those in its [8, 21, 65536] result. After the region the host
  views that result as [8, 21, 256, 256] and, apart from it, transposes and flattens the feature map. Undoing the two
  views, entry `(n, c, h, w)` of the first result is the score of class `c` at pixel `(n, h, w)`.
-/
import proofs.«165285_j30726196036197_1_alg».proof.Proof.ArrayScore
import proofs.«165285_j30726196036197_1_alg».proof.Proof.Score
import proofs.«165285_j30726196036197_1_alg».proof.Proof.Gen.ReferenceIdeal.Read
import Idealize.ShloMosaic.Lib.StableHlo.Run

set_option maxRecDepth 16384

noncomputable section

namespace Cert.KernelIdeal.Run

open Cert.KernelIdeal Cert.KernelIdeal.Gen Cert.KernelIdeal.Block Cert.KernelIdeal.Array
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The argument arrays at their literal types. -/
abbrev ftArg (c : Dev nD) : S8x64x256x256.Idx → EReal := m ((c : Thread nD τ).loc main_arg0)
abbrev meanArg (c : Dev nD) : S21x64.Idx → EReal := m ((c : Thread nD τ).loc main_arg1)
abbrev varArg (c : Dev nD) : S21x64.Idx → EReal := m ((c : Thread nD τ).loc main_arg2)

/-- The first coefficient array the region reads is the reference's `1 / (2 · (var + ε))`. -/
theorem aarr_eq (c : Dev nD) : aarr m c = Cert.ReferenceIdeal.Read.val_main_v7 (F := Ideal) (varArg m c) := by
  show StableHlo.after hostOps0 (fun b => m (c, b)) (Proc.devRef .tc main_v5) = _
  after_results
  rfl

/-- The second is the reference's `mean / (var + ε)`. -/
theorem barr_eq (c : Dev nD) : barr m c = Cert.ReferenceIdeal.Read.val_main_v10 (F := Ideal) (meanArg m c) (varArg m c) := by
  show StableHlo.after hostOps0 (fun b => m (c, b)) (Proc.devRef .tc main_v6) = _
  after_results
  rfl

/-- The constant column is the reference's per-class constant `Σ_d mean² / (2 (var + ε)) + ½ Σ_d log (var + ε)`, viewed
    as [21, 1]. -/
theorem karr_eq (c : Dev nD) :
    karr m c = shapeCast S21x1 (Cert.ReferenceIdeal.Read.val_main_v19 (F := Ideal) (meanArg m c) (varArg m c)) shapeCasts_S21_S21x1 := by
  show StableHlo.after hostOps0 (fun b => m (c, b)) (Proc.devRef .tc main_v15) = _
  after_results
  rfl

/-- The feature array the region reads is the feature map viewed as [8, 64, 65536]. -/
theorem Xarr_eq (c : Dev nD) : Xarr m c = shapeCast S8x64x65536 (ftArg m c) shapeCasts_S8x64x256x256_S8x64x65536 := by
  show StableHlo.after hostOps0 (fun b => m (c, b)) (Proc.devRef .tc main_v16) = _
  after_results
  rfl

/-- Entry `(n, d, 256·h + w)` of the feature array is `ft(n, d, h, w)`. -/
theorem Xarr_apply (c : Dev nD) (n : Fin 8) (d : Fin 64) (h w : Fin 256) (q : Fin 65536) (hq : q.val = h.val * 256 + w.val) :
    Xarr m c (ix3 n d q) = ftArg m c (ix4 n d h w) := by
  rw [Xarr_eq]
  refine shapeCast_apply _ _ (ix3 n d q) (ix4 n d h w) ?_
  rw [Shape.rowMajor_val_four, Shape.rowMajor_val_three]
  show ((n.val * 64 + d.val) * 256 + h.val) * 256 + w.val = (n.val * 64 + d.val) * 65536 + q.val
  omega

/-- Entry `(cls, 0)` of the constant column is the reference's constant for class `cls`. -/
theorem karr_apply (c : Dev nD) (cls : Fin 21) :
    karr m c (ix2 cls (0 : Fin 1)) = Cert.ReferenceIdeal.Read.val_main_v19 (F := Ideal) (meanArg m c) (varArg m c) (ix1 cls) := by
  rw [karr_eq]
  refine shapeCast_apply _ _ (ix2 cls (0 : Fin 1)) (ix1 cls) ?_
  rw [Shape.rowMajor_val_one, Shape.rowMajor_val_two]
  show cls.val = cls.val * 1 + 0
  omega

/-- THE FIRST RESULT: the region's array viewed as [8, 21, 256, 256] is the score of the argument arrays under the
    reference's three tables. -/
theorem result_eq (c : Dev nD) :
    Pipeline.afterTail₀ cfgs (dats m) 0 (V0 m) [hostOps1] c main_v18
      = Cert.Score.score (ftArg m c) (Cert.ReferenceIdeal.Read.val_main_v7 (F := Ideal) (varArg m c))
          (Cert.ReferenceIdeal.Read.val_main_v10 (F := Ideal) (meanArg m c) (varArg m c))
          (Cert.ReferenceIdeal.Read.val_main_v19 (F := Ideal) (meanArg m c) (varArg m c)) := by
  unfold Pipeline.afterTail₀
  show StableHlo.after hostOps1 _ (Proc.devRef .tc main_v18) = _
  after_results
  have hw : Pipeline.withArrays (cfgs 0).spec c (V0 m c) (fun w => (dats m 0 c).arrAt w (cfgs 0).N) (Proc.devRef .tc main_v17)
      = arrayScore (Xarr m c) (aarr m c) (barr m c) (karr m c) :=
    (Pipeline.withArrays_arr spec0 launch0.win.arr_inj c _ _ 4).trans (final m c)
  rw [hw]
  funext i
  obtain ⟨n, cls, h, w, rfl⟩ : ∃ (n : Fin 8) (cls : Fin 21) (h w : Fin 256), i = ix4 n cls h w := ⟨i 0, i 1, i 2, i 3, eq_ix4 i⟩
  have hh := h.isLt
  have hww := w.isLt
  show shapeCast S8x21x256x256 (arrayScore (Xarr m c) (aarr m c) (barr m c) (karr m c)) shapeCasts_S8x21x65536_S8x21x256x256 (ix4 n cls h w) = _
  refine (shapeCast_apply _ _ (ix4 n cls h w) (ix3 n cls (⟨h.val * 256 + w.val, by omega⟩ : Fin 65536)) ?_).trans ?_
  · rw [Shape.rowMajor_val_three, Shape.rowMajor_val_four]
    show (n.val * 21 + cls.val) * 65536 + (h.val * 256 + w.val) = ((n.val * 21 + cls.val) * 256 + h.val) * 256 + w.val
    omega
  rw [Cert.Score.score_apply]
  unfold arrayScore Cert.Score.scoreAt
  show -(((∑ d : Fin 64, aarr m c (ix2 cls d) * (Xarr m c (ix3 n d ⟨h.val * 256 + w.val, _⟩) * Xarr m c (ix3 n d ⟨h.val * 256 + w.val, _⟩)))
      - ∑ d : Fin 64, barr m c (ix2 cls d) * Xarr m c (ix3 n d ⟨h.val * 256 + w.val, _⟩)) + karr m c (ix2 cls (0 : Fin 1))) = _
  rw [karr_apply, aarr_eq, barr_eq]
  refine congrArg (fun s => -(s + _)) (congrArg₂ (· - ·) (Finset.sum_congr rfl fun d _ => ?_) (Finset.sum_congr rfl fun d _ => ?_))
  · rw [Xarr_apply m c n d h w _ rfl]
  · rw [Xarr_apply m c n d h w _ rfl]

/-- THE SECOND RESULT: the feature map transposed to channels-last and flattened, as the reference's. -/
theorem pixels_eq (c : Dev nD) :
    Pipeline.afterTail₀ cfgs (dats m) 0 (V0 m) [hostOps1] c main_v20 = Cert.ReferenceIdeal.Read.val_main_v1 (F := Ideal) (ftArg m c) := by
  unfold Pipeline.afterTail₀
  show StableHlo.after hostOps1 _ (Proc.devRef .tc main_v20) = _
  after_results
  rw [Pipeline.withArrays_of_ne _ c (V0 m c) _ main_arg0 (by exact (by decide : ∀ w, Pipeline.arrRef spec0 w ≠ main_arg0)),
    show V0 m c (Proc.devRef .tc main_arg0) = ftArg m c from V_main_arg0 m c]
  rfl

/-- THE RUN, READ: every weakly fair execution of the kernel program terminates with the first result at the class score
    of the arguments, the second at the flattened channels-last feature map, and the arguments unchanged. -/
theorem run : θ_run defs (onTc (τ := τ) (main (F := Ideal))) ⟨m, fun _ => 0, ρ⟩ fun r => ∀ c : Dev nD,
      r.2.mem ((c : Thread nD τ).loc main_v18)
        = Cert.Score.score (ftArg m c) (Cert.ReferenceIdeal.Read.val_main_v7 (F := Ideal) (varArg m c))
            (Cert.ReferenceIdeal.Read.val_main_v10 (F := Ideal) (meanArg m c) (varArg m c))
            (Cert.ReferenceIdeal.Read.val_main_v19 (F := Ideal) (meanArg m c) (varArg m c))
      ∧ r.2.mem ((c : Thread nD τ).loc main_v20) = Cert.ReferenceIdeal.Read.val_main_v1 (F := Ideal) (ftArg m c)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    have k0 := ((h c).2 main_arg0 (Pipeline.mem_restRefs_of main_arg0 (by decide) (by decide))).trans (W_main_arg0 m (dats m) c)
    have k1 := ((h c).2 main_arg1 (Pipeline.mem_restRefs_of main_arg1 (by decide) (by decide))).trans (W_main_arg1 m (dats m) c)
    have k2 := ((h c).2 main_arg2 (Pipeline.mem_restRefs_of main_arg2 (by decide) (by decide))).trans (W_main_arg2 m (dats m) c)
    ⟨((h c).2 main_v18 (Pipeline.mem_restRefs_of main_v18 (by decide) (by decide))).trans (result_eq m c),
      ((h c).2 main_v20 (Pipeline.mem_restRefs_of main_v20 (by decide) (by decide))).trans (pixels_eq m c),
      k1, k2, k0, k1, k2⟩)
    (run_main m ρ)

end Cert.KernelIdeal.Run

end
-- ==== Proof.lean ====
/-
  The certificate: a diagonal-Gaussian class score, computed block by block by a kernel and for all pixels at once by
  the reference.

  For a feature map `ft` [8, 64, 256, 256] and per-class `mean`, `var` [21, 64], both programs return
  `-( (Σ_d A(c,d)·ft(n,d,h,w)² - Σ_d B(c,d)·ft(n,d,h,w)) + C(c) )` at `(n, c, h, w)`, with `A = 1/(2(var+ε))`,
  `B = mean/(var+ε)`, `C = Σ_d mean²·A + ½ Σ_d log(var+ε)` computed by the same host operations in both, together with
  the feature map flattened channels-last, and `mean` and `var` themselves.

  * `Proof/Score.lean` states that function once. `Proof/RefScore.lean` reads the reference's result at an index, through
    its flattening of the pixels, and finds it. `Proof/BlockScore.lean` reads what the kernel body stores for one block
    at an entry, `Proof/ArrayScore.lean` shows the 64 blocks are the blocks of one whole-array function and tile the
    region's result, and `Proof/KernelRun.lean` undoes the host's two reshapes around the region and finds the same
    function.
  * The two sides differ in the order of the factors inside the two sums (tables on the left in the kernel, on the
    right in the reference), in `0 - x` against `-x`, and in a product accumulated from zero against a plain product;
    commutativity of the product and `0 + x = x`, `0 - x = -x` on the extended reals join them, so the inputs'
    finiteness is never used.
  * The three frames are the generated ones (the reference's is its generated run with the results dropped); no rewrite
    was applied when the kernel was idealized, so there is nothing to preserve.
-/
import proofs.«165285_j30726196036197_1_alg».proof.Defs
import proofs.«165285_j30726196036197_1_alg».proof.Proof.Gen.Kernel
import proofs.«165285_j30726196036197_1_alg».proof.Proof.Gen.Kernel.Skeleton
import proofs.«165285_j30726196036197_1_alg».proof.Proof.Gen.Kernel.Launch
import proofs.«165285_j30726196036197_1_alg».proof.Proof.Gen.Kernel.Points
import proofs.«165285_j30726196036197_1_alg».proof.Proof.Gen.Kernel.Frame
import proofs.«165285_j30726196036197_1_alg».proof.Proof.Gen.KernelIdeal
import proofs.«165285_j30726196036197_1_alg».proof.Proof.Gen.KernelIdeal.Skeleton
import proofs.«165285_j30726196036197_1_alg».proof.Proof.Gen.KernelIdeal.Launch
import proofs.«165285_j30726196036197_1_alg».proof.Proof.Gen.KernelIdeal.Points
import proofs.«165285_j30726196036197_1_alg».proof.Proof.Gen.KernelIdeal.Frame
import proofs.«165285_j30726196036197_1_alg».proof.Proof.Gen.ReferenceIdeal
import proofs.«165285_j30726196036197_1_alg».proof.Proof.Gen.Pre_finite_inputs
import proofs.«165285_j30726196036197_1_alg».proof.Proof.Gen.ReferenceIdeal.Run
import proofs.«165285_j30726196036197_1_alg».proof.Proof.Gen.ReferenceIdeal.Read
import proofs.«165285_j30726196036197_1_alg».proof.Proof.RefScore
import proofs.«165285_j30726196036197_1_alg».proof.Proof.KernelRun
import Idealize.ShloMosaic.Adequacy
import Idealize.ShloMosaic.Init

noncomputable section

namespace Cert.Proof

open Idealize.ShloMosaic Idealize.SL.Sem

/-- The word-level kernel program runs and keeps its arguments: the generated frame. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and keeps its arguments: its generated run, the results dropped. -/
theorem frame_reference : Cert.frame_ReferenceIdeal := fun m ρ _ =>
  (θ_run Cert.ReferenceIdeal.defs _ _).mono (fun _ h c => (h c).2.2.2.2)
    (Cert.ReferenceIdeal.Value.run (F := Ideal) m ρ)

/-- On the extended reals, from memories that agree on the three arguments, both programs end with the class score,
    the flattened channels-last feature map, and `mean` and `var`. -/
theorem algebraic : Cert.algebraic_KernelIdeal_ReferenceIdeal := by
  intro m ρ m' ρ' _ hagree
  refine ⟨_, _, _, _, Cert.KernelIdeal.Run.run m ρ, ?_⟩
  refine (θ_run Cert.ReferenceIdeal.defs _ _).mono (fun _ h c => ?_) (Cert.ReferenceIdeal.Value.run (F := Ideal) m' ρ')
  obtain ⟨h1, h2, h3, h4, h5, h6, h7⟩ := h c
  obtain ⟨a0, a1, a2⟩ := hagree c
  refine ⟨h1.trans ?_, h2.trans ?_, h3.trans a1, h4.trans a2, h5, h6, h7⟩
  · rw [Cert.ReferenceIdeal.Read.val_main_v26_eq, Cert.ReferenceIdeal.RefScore.result_eq_score, a0, a1, a2]
  · rw [Cert.ReferenceIdeal.Read.val_main_v1_eq, a0]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
